-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x640 : Shape := ⟨3, ![4, 256, 640]⟩
abbrev S4x64x640 : Shape := ⟨3, ![4, 64, 640]⟩
abbrev S4096x640 : Shape := ⟨2, ![4096, 640]⟩
abbrev S4096 : Shape := ⟨1, ![4096]⟩
abbrev S_ : Shape := ⟨0, ![]⟩

class Facts : Prop where
  bcast_S_S4x256x640 : S_.BroadcastsInDim S4x256x640 (![] : Fin 0 → Fin S4x256x640.rank)
  reducesTo_S4x256x640_S_d0_1_2 : S4x256x640.ReducesTo [0, 1, 2] S_
  h_S_ : 0 < S_.numel
  bcast_S_S4x64x640 : S_.BroadcastsInDim S4x64x640 (![] : Fin 0 → Fin S4x64x640.rank)
  reducesTo_S4x64x640_S_d0_1_2 : S4x64x640.ReducesTo [0, 1, 2] S_
  bcast_S_S4096x640 : S_.BroadcastsInDim S4096x640 (![] : Fin 0 → Fin S4096x640.rank)
  reducesTo_S4096x640_S_d0_1 : S4096x640.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x256x640 .f32) (main_arg1 : FVec F S4x64x640 .f32) (main_arg2 : FVec F S4096x640 .f32) (main_arg3 : FVec F S4096 .f32) : IVec S_ 1 :=
  let main_v0 : FVec F S4x256x640 .f32 := Host.absf main_arg0
  let main_cst : FVec F S_ .f32 := constant S_ .f32 0x7F800000#32
  let main_v1 : FVec F S4x256x640 .f32 := broadcastInDim S4x256x640 ![] bcast_S_S4x256x640 main_cst
  let main_v2 : IVec S4x256x640 1 := cmpf .olt main_v0 main_v1
  let main_c : IVec S_ 1 := constantI S_ 1 1#1
  let main_v3 : IVec S_ 1 := (fun x v => Host.reduce IntOp.andi x v reducesTo_S4x256x640_S_d0_1_2 h_S_) main_v2 main_c
  let main_v4 : FVec F S4x64x640 .f32 := Host.absf main_arg1
  let main_cst_0 : FVec F S_ .f32 := constant S_ .f32 0x7F800000#32
  let main_v5 : FVec F S4x64x640 .f32 := broadcastInDim S4x64x640 ![] bcast_S_S4x64x640 main_cst_0
  let main_v6 : IVec S4x64x640 1 := cmpf .olt main_v4 main_v5
  let main_c_1 : IVec S_ 1 := constantI S_ 1 1#1
  let main_v7 : IVec S_ 1 := (fun x v => Host.reduce IntOp.andi x v reducesTo_S4x64x640_S_d0_1_2 h_S_) main_v6 main_c_1
  let main_v8 : IVec S_ 1 := andi main_v3 main_v7
  let main_v9 : FVec F S4096x640 .f32 := Host.absf main_arg2
  let main_cst_2 : FVec F S_ .f32 := constant S_ .f32 0x7F800000#32
  let main_v10 : FVec F S4096x640 .f32 := broadcastInDim S4096x640 ![] bcast_S_S4096x640 main_cst_2
  let main_v11 : IVec S4096x640 1 := cmpf .olt main_v9 main_v10
  let main_c_3 : IVec S_ 1 := constantI S_ 1 1#1
  let main_v12 : IVec S_ 1 := (fun x v => Host.reduce IntOp.andi x v reducesTo_S4096x640_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x256x640 : Shape := ⟨3, ![4, 256, 640]⟩
abbrev S4x64x640 : Shape := ⟨3, ![4, 64, 640]⟩
abbrev S4096x640 : Shape := ⟨2, ![4096, 640]⟩
abbrev S4096 : Shape := ⟨1, ![4096]⟩
abbrev S4x256x64x640 : Shape := ⟨4, ![4, 256, 64, 640]⟩
abbrev S1x32x640 : Shape := ⟨3, ![1, 32, 640]⟩
abbrev S1x64x640 : Shape := ⟨3, ![1, 64, 640]⟩
abbrev S1x32x64x640 : Shape := ⟨4, ![1, 32, 64, 640]⟩
abbrev S32x640 : Shape := ⟨2, ![32, 640]⟩
abbrev S64x640 : Shape := ⟨2, ![64, 640]⟩
abbrev S32x1x640 : Shape := ⟨3, ![32, 1, 640]⟩
abbrev S32x64x640 : Shape := ⟨3, ![32, 64, 640]⟩
abbrev S65536x640 : Shape := ⟨2, ![65536, 640]⟩
abbrev S640x4096 : Shape := ⟨2, ![640, 4096]⟩
abbrev S1x4096 : Shape := ⟨2, ![1, 4096]⟩
abbrev S65536x4096 : Shape := ⟨2, ![65536, 4096]⟩
abbrev S2048x640 : Shape := ⟨2, ![2048, 640]⟩
abbrev S640x1024 : Shape := ⟨2, ![640, 1024]⟩
abbrev S1x1024 : Shape := ⟨2, ![1, 1024]⟩
abbrev S2048x1024 : Shape := ⟨2, ![2048, 1024]⟩
abbrev S4x256x64x4096 : Shape := ⟨4, ![4, 256, 64, 4096]⟩

abbrev nBuf : Space → Nat
  | .hbm => 11
  | .vmem => 14
  | .smem => 0
  | _ => 0

abbrev bufTy : (tb : Table) → Fin (tcTables nBuf tb) → BufTy
  | .hbm, ⟨0, _⟩ => ⟨S4x256x640, .f32⟩
  | .hbm, ⟨1, _⟩ => ⟨S4x64x640, .f32⟩
  | .hbm, ⟨2, _⟩ => ⟨S4096x640, .f32⟩
  | .hbm, ⟨3, _⟩ => ⟨S4096, .f32⟩
  | .hbm, ⟨4, _⟩ => ⟨S4x256x64x640, .bf16⟩
  | .hbm, ⟨5, _⟩ => ⟨S65536x640, .bf16⟩
  | .hbm, ⟨6, _⟩ => ⟨S640x4096, .f32⟩
  | .hbm, ⟨7, _⟩ => ⟨S640x4096, .bf16⟩
  | .hbm, ⟨8, _⟩ => ⟨S1x4096, .f32⟩
  | .hbm, ⟨9, _⟩ => ⟨S65536x4096, .f32⟩
  | .hbm, ⟨10, _⟩ => ⟨S4x256x64x4096, .f32⟩
  | .local _ .vmem, ⟨0, _⟩ => ⟨S1x32x640, .f32⟩
  | .local _ .vmem, ⟨1, _⟩ => ⟨S1x32x640, .f32⟩
  | .local _ .vmem, ⟨2, _⟩ => ⟨S1x64x640, .f32⟩
  | .local _ .vmem, ⟨3, _⟩ => ⟨S1x64x640, .f32⟩
  | .local _ .vmem, ⟨4, _⟩ => ⟨S1x32x64x640, .bf16⟩
  | .local _ .vmem, ⟨5, _⟩ => ⟨S1x32x64x640, .bf16⟩
  | .local _ .vmem, ⟨6, _⟩ => ⟨S2048x640, .bf16⟩
  | .local _ .vmem, ⟨7, _⟩ => ⟨S2048x640, .bf16⟩
  | .local _ .vmem, ⟨8, _⟩ => ⟨S640x1024, .bf16⟩
  | .local _ .vmem, ⟨9, _⟩ => ⟨S640x1024, .bf16⟩
  | .local _ .vmem, ⟨10, _⟩ => ⟨S1x1024, .f32⟩
  | .local _ .vmem, ⟨11, _⟩ => ⟨S1x1024, .f32⟩
  | .local _ .vmem, ⟨12, _⟩ => ⟨S2048x1024, .f32⟩
  | .local _ .vmem, ⟨13, _⟩ => ⟨S2048x1024, .f32⟩
  | _, _ => ⟨S4x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x64x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S640x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  shapeCasts_S32x640_S32x1x640 : S32x640.ShapeCasts S32x1x640
  shapeCasts_S64x640_S1x64x640 : S64x640.ShapeCasts S1x64x640
  broadcasts_S32x1x640_S32x64x640 : S32x1x640.Broadcasts S32x64x640
  broadcasts_S1x64x640_S32x64x640 : S1x64x640.Broadcasts S32x64x640
  bitsLt_bf16_f32 : FTy.bits .bf16 < FTy.bits .f32
  inb_S1x32x64x640_S1x32x64x640_0_0_0_0 : ∀ a, (![0, 0, 0, 0] : Fin 4 → Nat) a + S1x32x64x640.size a ≤ S1x32x64x640.size a
  h_S1x32x64x640 : 0 < S1x32x64x640.numel
  shapeCasts_S1x32x64x640_S32x64x640 : S1x32x64x640.ShapeCasts S32x64x640
  shapeCasts_S32x64x640_S1x32x64x640 : S32x64x640.ShapeCasts S1x32x64x640
  packedbf16_S1x32x64x640_S1x32x64x640_0_0_0_0 : (Rect.unit (s := S1x32x64x640) ![0, 0, 0, 0] S1x32x64x640.size inb_S1x32x64x640_S1x32x64x640_0_0_0_0).PackedRows (EltTy.packing .bf16)
  shapeCasts_S4x256x64x640_S65536x640 : S4x256x64x640.ShapeCasts S65536x640
  transposes_S4096x640_S640x4096_1_0 : S4096x640.Transposes [1, 0] S640x4096
  shapeCasts_S4096_S1x4096 : S4096.ShapeCasts S1x4096
  inb_S2048x640_S2048x640_0_0 : ∀ a, (![0, 0] : Fin 2 → Nat) a + S2048x640.size a ≤ S2048x640.size a
  h_S2048x640 : 0 < S2048x640.numel
  shapeCasts_S2048x640_S2048x640 : S2048x640.ShapeCasts S2048x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S65536x4096_S4x256x64x4096 : S65536x4096.ShapeCasts S4x256x64x4096
  dot_S2048x640_S640x1024_S2048x1024_1_0_0_1_n_n_wf : DotDims.WF S2048x640 S640x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x640.size a ≤ S4x256x640.size a
  hwx0_0 : ∀ i : grid0.Coords, EltTy.bits .f32 = 32 ∨ (Rect.block (s := S4x256x640) S1x32x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S4x64x640.size a
  hwx0_1 : ∀ i : grid0.Coords, EltTy.bits .f32 = 32 ∨ (Rect.block (s := S4x64x640) S1x64x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x64x640.size a ≤ S4x256x64x640.size a
  hwx0_2 : ∀ i : grid0.Coords, EltTy.bits .bf16 = 32 ∨ (Rect.block (s := S4x256x64x640) S1x32x64x640.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x640.size a ≤ S65536x640.size a
  hwx1_0 : ∀ i : grid1.Coords, EltTy.bits .bf16 = 32 ∨ (Rect.block (s := S65536x640) S2048x640.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x1024.size a ≤ S640x4096.size a
  hwx1_1 : ∀ i : grid1.Coords, EltTy.bits .bf16 = 32 ∨ (Rect.block (s := S640x4096) S640x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S65536x4096.size a
  hwx1_3 : ∀ i : grid1.Coords, EltTy.bits .f32 = 32 ∨ (Rect.block (s := S65536x4096) S2048x1024.size (cc1_transform_3 i) (hinb1_3 i)).WholeWords (EltTy.packing .f32)

variable [Facts₀]

def dot_S2048x640_S640x1024_S2048x1024_1_0_0_1_n_n : DotDims S2048x640 S640x1024 S2048x1024 where
  lhsContracting := [1]
  rhsContracting := [0]
  lhsNonContracting := [0]
  rhsNonContracting := [1]
  lhsBatch := []
  rhsBatch := []
  wf := dot_S2048x640_S640x1024_S2048x1024_1_0_0_1_n_n_wf

abbrev win0_0 : Pipeline.Window sig grid0 :=
  Pipeline.Window.ofSpec (Memref.whole main_arg0) S1x32x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x64x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2048x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S640x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x256x640 : Shape := ⟨3, ![4, 256, 640]⟩
abbrev S4x64x640 : Shape := ⟨3, ![4, 64, 640]⟩
abbrev S4096x640 : Shape := ⟨2, ![4096, 640]⟩
abbrev S4096 : Shape := ⟨1, ![4096]⟩
abbrev S4x256x1x640 : Shape := ⟨4, ![4, 256, 1, 640]⟩
abbrev S4x1x64x640 : Shape := ⟨4, ![4, 1, 64, 640]⟩
abbrev S4x256x64x640 : Shape := ⟨4, ![4, 256, 64, 640]⟩
abbrev S4x256x64x4096 : Shape := ⟨4, ![4, 256, 64, 4096]⟩
abbrev S1x1x1x4096 : Shape := ⟨4, ![1, 1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x256x640, .f32⟩
  | .hbm, ⟨1, _⟩ => ⟨S4x64x640, .f32⟩
  | .hbm, ⟨2, _⟩ => ⟨S4096x640, .f32⟩
  | .hbm, ⟨3, _⟩ => ⟨S4096, .f32⟩
  | .hbm, ⟨4, _⟩ => ⟨S4x256x1x640, .f32⟩
  | .hbm, ⟨5, _⟩ => ⟨S4x1x64x640, .f32⟩
  | .hbm, ⟨6, _⟩ => ⟨S4x256x64x640, .f32⟩
  | .hbm, ⟨7, _⟩ => ⟨S4x256x64x640, .f32⟩
  | .hbm, ⟨8, _⟩ => ⟨S4x256x64x640, .f32⟩
  | .hbm, ⟨9, _⟩ => ⟨S4x256x64x640, .f32⟩
  | .hbm, ⟨10, _⟩ => ⟨S4x256x64x4096, .f32⟩
  | .hbm, ⟨11, _⟩ => ⟨S1x1x1x4096, .f32⟩
  | .hbm, ⟨12, _⟩ => ⟨S4x256x64x4096, .f32⟩
  | .hbm, ⟨13, _⟩ => ⟨S4x256x64x4096, .f32⟩
  | _, _ => ⟨S4x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4x256x640_S4x256x1x640_0_1_3 : S4x256x640.BroadcastsInDim S4x256x1x640 (![0, 1, 3] : Fin 3 → Fin S4x256x1x640.rank)
  bcast_S4x64x640_S4x1x64x640_0_2_3 : S4x64x640.BroadcastsInDim S4x1x64x640 (![0, 2, 3] : Fin 3 → Fin S4x1x64x640.rank)
  bcast_S4x256x1x640_S4x256x64x640_0_1_2_3 : S4x256x1x640.BroadcastsInDim S4x256x64x640 (![0, 1, 2, 3] : Fin 4 → Fin S4x256x64x640.rank)
  bcast_S4x1x64x640_S4x256x64x640_0_1_2_3 : S4x1x64x640.BroadcastsInDim S4x256x64x640 (![0, 1, 2, 3] : Fin 4 → Fin S4x256x64x640.rank)
  bcast_S4096_S1x1x1x4096_3 : S4096.BroadcastsInDim S1x1x1x4096 (![3] : Fin 1 → Fin S1x1x1x4096.rank)
  bcast_S1x1x1x4096_S4x256x64x4096_0_1_2_3 : S1x1x1x4096.BroadcastsInDim S4x256x64x4096 (![0, 1, 2, 3] : Fin 4 → Fin S4x256x64x4096.rank)
  dot_S4x256x64x640_S4096x640_S4x256x64x4096_3_1_012_0_n_n_wf : DotDims.WF S4x256x64x640 S4096x640 S4x256x64x4096 [3] [1] [0, 1, 2] [0] [] []

variable [Facts₀]

def dot_S4x256x64x640_S4096x640_S4x256x64x4096_3_1_012_0_n_n : DotDims S4x256x64x640 S4096x640 S4x256x64x4096 where
  lhsContracting := [3]
  rhsContracting := [1]
  lhsNonContracting := [0, 1, 2]
  rhsNonContracting := [0]
  lhsBatch := []
  rhsBatch := []
  wf := dot_S4x256x64x640_S4096x640_S4x256x64x4096_3_1_012_0_n_n_wf

class Facts : Prop extends Facts₀ where

variable [Facts]
-- ==== Proof.JoinerSpec.lean ====
/-
  The joiner's mathematics, stated once over the extended reals and free of either program.

  From an encoder array `enc[b, t, d]`, a predictor array `pred[b, u, d]`, a weight matrix `w[v, d]` and a bias
  `bias[v]`, the hidden activation is `tanh (enc[b, t, d] + pred[b, u, d])` and the result is

      out[b, t, u, v] = (∑ d, tanh (enc[b, t, d] + pred[b, u, d]) * w[v, d]) + bias[v].

  Both programs compute exactly this expression, so no law of the extended reals beyond reading each operation at an
  index is needed, and the inputs' finiteness is never used.  The flattened forms (`hiddenFlat`, `jointFlat`) are the same
  arrays seen as matrices whose rows are the row-major positions of `(b, t, u)`.
-/
import Idealize.ShloMosaic.PureOps.Ideal
import Idealize.ShloMosaic.Lib.ValueIdx

noncomputable section

namespace Cert.Joiner

open Idealize.ShloMosaic Idealize.ShloMosaic.ValueIdx
open scoped BigOperators

abbrev EncS : Shape := ⟨3, ![4, 256, 640]⟩
abbrev PredS : Shape := ⟨3, ![4, 64, 640]⟩
abbrev WS : Shape := ⟨2, ![4096, 640]⟩
abbrev BiasS : Shape := ⟨1, ![4096]⟩
abbrev HidS : Shape := ⟨4, ![4, 256, 64, 640]⟩
abbrev OutS : Shape := ⟨4, ![4, 256, 64, 4096]⟩
abbrev HidFlatS : Shape := ⟨2, ![65536, 640]⟩
abbrev WtS : Shape := ⟨2, ![640, 4096]⟩
abbrev BiasRowS : Shape := ⟨2, ![1, 4096]⟩
abbrev OutFlatS : Shape := ⟨2, ![65536, 4096]⟩

/-- The hidden activation at `(b, t, u, d)`. -/
def hiddenAt (enc : EncS.Idx → EReal) (pred : PredS.Idx → EReal) (b : Fin 4) (t : Fin 256) (u : Fin 64) (d : Fin 640) : EReal :=
  Ideal.tanh (enc (ix3 b t d) + pred (ix3 b u d))

/-- The hidden activation as an array. -/
def hidden (enc : EncS.Idx → EReal) (pred : PredS.Idx → EReal) : HidS.Idx → EReal :=
  fun i => hiddenAt enc pred ⟨(i 0).val, (i 0).isLt⟩ ⟨(i 1).val, (i 1).isLt⟩ ⟨(i 2).val, (i 2).isLt⟩ ⟨(i 3).val, (i 3).isLt⟩

/-- The joiner's result at `(b, t, u, v)`. -/
def jointAt (enc : EncS.Idx → EReal) (pred : PredS.Idx → EReal) (w : WS.Idx → EReal) (bias : BiasS.Idx → EReal)
    (b : Fin 4) (t : Fin 256) (u : Fin 64) (v : Fin 4096) : EReal :=
  (∑ k : Fin 640, hiddenAt enc pred b t u k * w (ix2 v k)) + bias (ix1 v)

/-- The joiner's result as an array. -/
def joint (enc : EncS.Idx → EReal) (pred : PredS.Idx → EReal) (w : WS.Idx → EReal) (bias : BiasS.Idx → EReal) : OutS.Idx → EReal :=
  fun i => jointAt enc pred w bias ⟨(i 0).val, (i 0).isLt⟩ ⟨(i 1).val, (i 1).isLt⟩ ⟨(i 2).val, (i 2).isLt⟩ ⟨(i 3).val, (i 3).isLt⟩

/-- A matrix product with a row of biases added to every row: at `(r, v)` it is `(∑ k, h[r, k] * wt[k, v]) + b[0, v]`. -/
def affine (h : HidFlatS.Idx → EReal) (wt : WtS.Idx → EReal) (b : BiasRowS.Idx → EReal) : OutFlatS.Idx → EReal :=
  fun i => (∑ k : Fin 640, h (ix2 ⟨(i 0).val, (i 0).isLt⟩ k) * wt (ix2 k ⟨(i 1).val, (i 1).isLt⟩)) + b (ix2 (0 : Fin 1) ⟨(i 1).val, (i 1).isLt⟩)

end Cert.Joiner

end
-- ==== Proof.HiddenRegion.lean ====
/-
  Region 0 (the broadcast-add and tanh), read as values at the ideal instance.

  A grid point `(b, t)` loads the `32 × 640` slab of `enc[b]` at rows `32 t …` and the whole `64 × 640` slab `pred[b]`, and
  stores `tanh (enc[b, 32 t + p, d] + pred[b, u, d])` at `(p, u, d)` of its output block; the narrowing of the result's
  float format is the identity on extended reals.  The output blocks tile `[4, 256, 64, 640]`, so after the region the
  output array is `Joiner.hidden` of the two arrays the region was entered with.  Everything is stated at an arbitrary
  entry contents `V`.
-/
import proofs.«110727_j85633057948138_1_alg».proof.Proof.Gen.KernelIdeal.Frame
import proofs.«110727_j85633057948138_1_alg».proof.Proof.JoinerSpec
import Idealize.ShloMosaic.Lib.Pipeline.Value
import Idealize.ShloMosaic.Lib.ValueIdx

set_option maxRecDepth 16384

noncomputable section

namespace Cert.KernelIdeal.HiddenRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The encoder slab, spread over the `u` axis, at `(p, u, d)`: its entry at `(0, p, d)`. -/
theorem encSpread_apply (x0 : Vec Ideal S1x32x640 .f32) (p : Fin 32) (u : Fin 64) (d : Fin 640) :
    broadcastTo S32x64x640 (shapeCast S32x1x640 (shapeCast S32x640 x0 shapeCasts_S1x32x640_S32x640) shapeCasts_S32x640_S32x1x640)
      broadcasts_S32x1x640_S32x64x640 (ix3 p u d) = x0 (ix3 (0 : Fin 1) p d) := by
  refine (broadcastTo_apply _ _ (ix3 p u d) (ix3 p (0 : Fin 1) d) fun a => ?_).trans ?_
  · match a with
    | ⟨0, _⟩ => show p.val = if (32 : Nat) = 1 then 0 else p.val; rw [if_neg (by decide)]
    | ⟨1, _⟩ => show 0 = if (1 : Nat) = 1 then 0 else u.val; rw [if_pos rfl]
    | ⟨2, _⟩ => show d.val = if (640 : Nat) = 1 then 0 else d.val; rw [if_neg (by decide)]
  refine (shapeCast_apply _ _ (ix3 p (0 : Fin 1) d) (ix2 p d) ?_).trans ?_
  · rw [Shape.rowMajor_val_two, Shape.rowMajor_val_three]
    show p.val * 640 + d.val = (p.val * 1 + 0) * 640 + d.val
    omega
  refine shapeCast_apply _ _ (ix2 p d) (ix3 (0 : Fin 1) p d) ?_
  rw [Shape.rowMajor_val_two, Shape.rowMajor_val_three]
  show (0 * 32 + p.val) * 640 + d.val = p.val * 640 + d.val
  omega

/-- The predictor slab, spread over the `p` axis, at `(p, u, d)`: its entry at `(0, u, d)`. -/
theorem predSpread_apply (x1 : Vec Ideal S1x64x640 .f32) (p : Fin 32) (u : Fin 64) (d : Fin 640) :
    broadcastTo S32x64x640 (shapeCast S1x64x640 (shapeCast S64x640 x1 shapeCasts_S1x64x640_S64x640) shapeCasts_S64x640_S1x64x640)
      broadcasts_S1x64x640_S32x64x640 (ix3 p u d) = x1 (ix3 (0 : Fin 1) u d) := by
  rw [shapeCast_shapeCast]
  refine broadcastTo_apply _ _ (ix3 p u d) (ix3 (0 : Fin 1) u d) fun a => ?_
  match a with
  | ⟨0, _⟩ => show 0 = if (1 : Nat) = 1 then 0 else p.val; rw [if_pos rfl]
  | ⟨1, _⟩ => show u.val = if (64 : Nat) = 1 then 0 else u.val; rw [if_neg (by decide)]
  | ⟨2, _⟩ => show d.val = if (640 : Nat) = 1 then 0 else d.val; rw [if_neg (by decide)]

/-- The body's stored value at `(a, p, u, d)` of the block: `tanh` of the sum of the two slabs' entries. -/
theorem pay_apply (x0 : Vec Ideal S1x32x640 .f32) (x1 : Vec Ideal S1x64x640 .f32) (a : Fin 1) (p : Fin 32) (u : Fin 64) (d : Fin 640) :
    k0_pay1 (F := Ideal) x0 x1 (ix4 a p u d) = Ideal.tanh (x0 (ix3 (0 : Fin 1) p d) + x1 (ix3 (0 : Fin 1) u d)) := by
  unfold k0_pay1
  refine (shapeCast_apply _ _ (ix4 a p u d) (ix3 p u d) ?_).trans ?_
  · rw [Shape.rowMajor_val_three, Shape.rowMajor_val_four]
    show (p.val * 64 + u.val) * 640 + d.val = ((a.val * 32 + p.val) * 64 + u.val) * 640 + d.val
    have := a.isLt; omega
  exact congrArg Ideal.tanh (congrArg₂ (· + ·) (encSpread_apply x0 p u d) (predSpread_apply x1 p u d))

/-- The stored value at a block index `j` is the hidden activation at an array index `i`, once the two slabs' entries are
    known to be the arrays' entries at indices `k0`, `k1` whose coordinates are `i`'s. -/
theorem block_apply (x0 : Vec Ideal S1x32x640 .f32) (x1 : Vec Ideal S1x64x640 .f32)
    (enc : S4x256x640.Idx → EReal) (pred : S4x64x640.Idx → EReal) (j : S1x32x64x640.Idx) (i : S4x256x64x640.Idx)
    (k0 : S4x256x640.Idx) (k1 : S4x64x640.Idx)
    (hx0 : x0 (ix3 (0 : Fin 1) (j 1) (j 3)) = enc k0) (hx1 : x1 (ix3 (0 : Fin 1) (j 2) (j 3)) = pred k1)
    (h00 : (k0 0).val = (i 0).val) (h01 : (k0 1).val = (i 1).val) (h02 : (k0 2).val = (i 3).val)
    (h10 : (k1 0).val = (i 0).val) (h11 : (k1 1).val = (i 2).val) (h12 : (k1 2).val = (i 3).val) :
    k0_pay1 (F := Ideal) x0 x1 j = Cert.Joiner.hidden enc pred i := by
  refine (congrArg (k0_pay1 (F := Ideal) x0 x1) (eq_ix4 j)).trans ((pay_apply x0 x1 (j 0) (j 1) (j 2) (j 3)).trans ?_)
  rw [hx0, hx1]
  have e0 : k0 = ix3 (⟨(i 0).val, (i 0).isLt⟩ : Fin 4) (⟨(i 1).val, (i 1).isLt⟩ : Fin 256) (⟨(i 3).val, (i 3).isLt⟩ : Fin 640) :=
    funext fun a => Fin.ext (by
      match a with
      | ⟨0, _⟩ => exact h00
      | ⟨1, _⟩ => exact h01
      | ⟨2, _⟩ => exact h02)
  have e1 : k1 = ix3 (⟨(i 0).val, (i 0).isLt⟩ : Fin 4) (⟨(i 2).val, (i 2).isLt⟩ : Fin 64) (⟨(i 3).val, (i 3).isLt⟩ : Fin 640) :=
    funext fun a => Fin.ext (by
      match a with
      | ⟨0, _⟩ => exact h10
      | ⟨1, _⟩ => exact h11
      | ⟨2, _⟩ => exact h12)
  rw [e0, e1]
  rfl

/-- The printed index maps, decided over the grid's 32 points: the encoder's block moves with the output's on the batch and
    time axes, the predictor's on the batch axis only, every other block index is zero, and the output's stay in range. -/
theorem idx_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 3) = win0_2.index t (0 : Fin 4)
    ∧ win0_1.index t (1 : Fin 3) = 0
    ∧ win0_1.index t (2 : Fin 3) = 0
    ∧ win0_2.index t (2 : Fin 4) = 0
    ∧ win0_2.index t (3 : Fin 4) = 0 :=
  (by decide +kernel : ∀ t : Fin grid0.N, _)

/-- Every block of the output array is some point's. -/
theorem idx_onto : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])

section
variable (V : (c : Dev nD) → (b : Ref sig .tc) → Buf (Elt Ideal) ((c : Thread nD τ).loc b))

/-- What point `t` writes back is block `t` of the hidden activation of the two arrays the region was entered with. -/
theorem flushed_eq (c : Dev nD) (t : Fin cfg0.N) :
    (dat0 V c).flushed 2 t = ((cfg0.win 2).blk t).view.read (Elt Ideal) (Cert.Joiner.hidden (V c main_arg0) (V c main_arg1)) := by
  show (cfg0.win 2).cut (grid0.coords t) ((dat0 V c).after 2 t) = _
  rw [after0_2]
  unfold out0_2
  rw [View.canon_unit_zero zeros4]
  simp only [View.ld_unit_zero (S := S1x32x640) zeros3, View.ld_unit_zero (S := S1x64x640) zeros3]
  obtain ⟨e00, e01, e02, e10, e11, e12, e22, e23⟩ := idx_facts t
  funext j
  show k0_pay1 (F := Ideal) (iblk0 V c 0 t) (iblk0 V c 1 t) j
    = Cert.Joiner.hidden (V c main_arg0) (V c main_arg1) (((cfg0.win 2).blk t).view.emb j)
  have hj0 : (j 0).val < 1 := (j 0).isLt
  refine block_apply (iblk0 V c 0 t) (iblk0 V c 1 t) (V c main_arg0) (V c main_arg1) j (((cfg0.win 2).blk t).view.emb j)
    (((cfg0.win 0).blk t).view.emb (ix3 (0 : Fin 1) (j 1) (j 3))) (((cfg0.win 1).blk t).view.emb (ix3 (0 : Fin 1) (j 2) (j 3)))
    rfl rfl ?_ ?_ ?_ ?_ ?_ ?_
  · show win0_0.index t (0 : Fin 3) * 1 + 1 * 0 = win0_2.index t (0 : Fin 4) * 1 + 1 * (j 0).val; omega
  · show win0_0.index t (1 : Fin 3) * 32 + 1 * (j 1).val = win0_2.index t (1 : Fin 4) * 32 + 1 * (j 1).val; omega
  · show win0_0.index t (2 : Fin 3) * 640 + 1 * (j 3).val = win0_2.index t (3 : Fin 4) * 640 + 1 * (j 3).val; omega
  · show win0_1.index t (0 : Fin 3) * 1 + 1 * 0 = win0_2.index t (0 : Fin 4) * 1 + 1 * (j 0).val; omega
  · show win0_1.index t (1 : Fin 3) * 64 + 1 * (j 2).val = win0_2.index t (2 : Fin 4) * 64 + 1 * (j 2).val; omega
  · show win0_1.index t (2 : Fin 3) * 640 + 1 * (j 3).val = win0_2.index t (3 : Fin 4) * 640 + 1 * (j 3).val; omega

/-- An index of the output array lies in point `t`'s block iff each coordinate lies in the block's range on its axis. -/
theorem mem_blk (t : Fin cfg0.N) (i : S4x256x64x640.Idx) :
    i ∈ ((cfg0.win 2).blk t).view.set ↔ ∀ a : Fin 4, win0_2.index t a * S1x32x64x640.size a ≤ (i a).val
      ∧ (i a).val < win0_2.index t a * S1x32x64x640.size a + S1x32x64x640.size a := by
  show i ∈ ((View.whole main_v0).slice (win0_2.rect t)).set ↔ _
  rw [View.set_slice_whole, Rect.mem_set_unit]
  exact Iff.rfl

/-- The output blocks tile the array: index `(b, t, u, d)` lies in the block of the point with block indices `(b, t / 32)`. -/
theorem cover (i : S4x256x64x640.Idx) : ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 64 := (i 2).isLt
  have hi3 : (i 3).val < 640 := (i 3).isLt
  obtain ⟨t, ht⟩ := idx_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 64 ≤ (i 2).val ∧ (i 2).val < win0_2.index t (2 : Fin 4) * 64 + 64; omega
  | ⟨3, _⟩ => show win0_2.index t (3 : Fin 4) * 640 ≤ (i 3).val ∧ (i 3).val < win0_2.index t (3 : Fin 4) * 640 + 640; omega

/-- After the region its output array holds the hidden activation of the two arrays it was entered with. -/
theorem hidden_array (c : Dev nD) :
    (dat0 V c).arrAt 2 cfg0.N = Cert.Joiner.hidden (V c main_arg0) (V c main_arg1) :=
  (dat0 V c).arrAt_eq_of_cover 2 _ (fun t _ => flushed_eq V c t) cover

end

end Cert.KernelIdeal.HiddenRegion

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.AffineRegion.lean ====
/-
  Region 1 (the matrix product with the bias row), read as values at the ideal instance.

  A grid point `(r, s)` loads rows `2048 r …` of the flattened hidden matrix `h`, columns `1024 s …` of the transposed
  weights `wt` and of the bias row `b`, and stores at `(p, q)` of its output block the contraction
  `∑ k, h[2048 r + p, k] * wt[k, 1024 s + q]` (a product into a zero accumulator is the plain sum) plus `b[0, 1024 s + q]`.
  The output blocks tile `[65536, 4096]`, so after the region the output array is `Joiner.affine` of the three arrays the
  region was entered with.  Everything is stated at an arbitrary entry contents `V`.
-/
import proofs.«110727_j85633057948138_1_alg».proof.Proof.Gen.KernelIdeal.Frame
import proofs.«110727_j85633057948138_1_alg».proof.Proof.JoinerSpec
import proofs.«110727_j85633057948138_1_alg».proof.Proof.LibRowOps
import Idealize.ShloMosaic.Lib.Pipeline.Value
import Idealize.ShloMosaic.Lib.ValueIdx

set_option maxRecDepth 16384

noncomputable section

namespace Cert.KernelIdeal.AffineRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

theorem zeros2 : (![0, 0] : Fin 2 → Nat) = fun _ => 0 := funext fun a => by fin_cases a <;> rfl

/-- The product of the two loaded blocks into the zero accumulator, at `(p, q)`: the sum over the contracted axis. -/
theorem product_apply (x0 : Vec Ideal S2048x640 .bf16) (x1 : Vec Ideal S640x1024 .bf16) (p : Fin 2048) (q : Fin 1024) :
    matmul (F := Ideal) (φ₁ := .bf16) (φ₂ := .bf16) dot_S2048x640_S640x1024_S2048x1024_1_0_0_1_n_n none (shapeCast S2048x640 x0 shapeCasts_S2048x640_S2048x640)
        (shapeCast S640x1024 x1 shapeCasts_S640x1024_S640x1024) (constant (F := Ideal) S2048x1024 .f32 0x00000000#32) (ix2 p q)
      = ∑ k : Fin 640, x0 (ix2 p k) * x1 (ix2 k q) := by
  rw [shapeCast_self, shapeCast_self]
  exact Cert.RowOps.matmul_apply dot_S2048x640_S640x1024_S2048x1024_1_0_0_1_n_n_wf none x0 x1 p q

/-- The bias row spread over the block's rows, at `(p, q)`: the row's entry `q`. -/
theorem biasSpread_apply (x2 : Vec Ideal S1x1024 .f32) (p : Fin 2048) (q : Fin 1024) :
    broadcastTo S2048x1024 (shapeCast S1x1024 (shapeCast S1x1024 x2 shapeCasts_S1x1024_S1x1024) shapeCasts_S1x1024_S1x1024)
      broadcasts_S1x1024_S2048x1024 (ix2 p q) = x2 (ix2 (0 : Fin 1) q) := by
  rw [shapeCast_self]
  exact Cert.RowOps.rowParam_spread_apply x2 _ _ p q

/-- The body's stored value at `(p, q)` of the block. -/
theorem pay_apply (x0 : Vec Ideal S2048x640 .bf16) (x1 : Vec Ideal S640x1024 .bf16) (x2 : Vec Ideal S1x1024 .f32) (p : Fin 2048) (q : Fin 1024) :
    k1_pay1 (F := Ideal) x0 x1 x2 (ix2 p q) = (∑ k : Fin 640, x0 (ix2 p k) * x1 (ix2 k q)) + x2 (ix2 (0 : Fin 1) q) := by
  unfold k1_pay1
  exact congrArg₂ (· + ·) (product_apply x0 x1 p q) (biasSpread_apply x2 p q)

/-- The stored value at a block index `j` is `Joiner.affine` at an array index `i`, once the three blocks' entries are known to be
    the arrays' entries at indices whose coordinates are `i`'s row, `i`'s column and the contracted `k`. -/
theorem block_apply (x0 : Vec Ideal S2048x640 .bf16) (x1 : Vec Ideal S640x1024 .bf16) (x2 : Vec Ideal S1x1024 .f32)
    (h : S65536x640.Idx → EReal) (wt : S640x4096.Idx → EReal) (b : S1x4096.Idx → EReal) (j : S2048x1024.Idx) (i : S65536x4096.Idx)
    (K0 : Fin 640 → S65536x640.Idx) (K1 : Fin 640 → S640x4096.Idx) (K2 : S1x4096.Idx)
    (hx0 : ∀ k, x0 (ix2 (j 0) k) = h (K0 k)) (hx1 : ∀ k, x1 (ix2 k (j 1)) = wt (K1 k)) (hx2 : x2 (ix2 (0 : Fin 1) (j 1)) = b K2)
    (h00 : ∀ k, (K0 k 0).val = (i 0).val) (h01 : ∀ k, (K0 k 1).val = k.val)
    (h10 : ∀ k, (K1 k 0).val = k.val) (h11 : ∀ k, (K1 k 1).val = (i 1).val)
    (h20 : (K2 0).val = 0) (h21 : (K2 1).val = (i 1).val) :
    k1_pay1 (F := Ideal) x0 x1 x2 j = Cert.Joiner.affine h wt b i := by
  refine (congrArg (k1_pay1 (F := Ideal) x0 x1 x2) (eq_ix2 j)).trans ((pay_apply x0 x1 x2 (j 0) (j 1)).trans ?_)
  have e0 : ∀ k, K0 k = ix2 (⟨(i 0).val, (i 0).isLt⟩ : Fin 65536) k := fun k =>
    funext fun a => Fin.ext (by
      match a with
      | ⟨0, _⟩ => exact h00 k
      | ⟨1, _⟩ => exact h01 k)
  have e1 : ∀ k, K1 k = ix2 k (⟨(i 1).val, (i 1).isLt⟩ : Fin 4096) := fun k =>
    funext fun a => Fin.ext (by
      match a with
      | ⟨0, _⟩ => exact h10 k
      | ⟨1, _⟩ => exact h11 k)
  have e2 : K2 = ix2 (0 : Fin 1) (⟨(i 1).val, (i 1).isLt⟩ : Fin 4096) :=
    funext fun a => Fin.ext (by
      match a with
      | ⟨0, _⟩ => exact h20
      | ⟨1, _⟩ => exact h21)
  rw [hx2, e2]
  unfold Cert.Joiner.affine
  exact congrArg (· + b (ix2 (0 : Fin 1) (⟨(i 1).val, (i 1).isLt⟩ : Fin 4096)))
    (Finset.sum_congr rfl fun k _ => by rw [hx0 k, hx1 k, e0 k, e1 k])

/-- The printed index maps, decided over the grid's 128 points: the hidden matrix's block moves with the output's rows, the
    weights' and the bias row's with the output's columns, every other block index is zero. -/
theorem idx_facts : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2) :=
  (by decide +kernel : ∀ t : Fin grid1.N, _)

/-- Every block of the output array is some point's. -/
theorem idx_onto : ∀ (q0 : Fin 32) (q1 : Fin 4), ∃ t : Fin cfg1.N, win1_3.index t = ![q0.val, q1.val] :=
  (by decide +kernel : ∀ (q0 : Fin 32) (q1 : Fin 4), ∃ t : Fin grid1.N, win1_3.index t = ![q0.val, q1.val])

section
variable (V : (c : Dev nD) → (b : Ref sig .tc) → Buf (Elt Ideal) ((c : Thread nD τ).loc b))

/-- What point `t` writes back is block `t` of `Joiner.affine` of the three arrays the region was entered with. -/
theorem flushed_eq (c : Dev nD) (t : Fin cfg1.N) :
    (dat1 V c).flushed 3 t
      = ((cfg1.win 3).blk t).view.read (Elt Ideal) (Cert.Joiner.affine (V c main_v1) (V c main_v3) (V c main_v4)) := by
  show (cfg1.win 3).cut (grid1.coords t) ((dat1 V c).after 3 t) = _
  rw [after1_3]
  unfold out1_3
  rw [View.canon_unit_zero zeros2]
  simp only [View.ld_unit_zero (S := S2048x640) zeros2, View.ld_unit_zero (S := S640x1024) zeros2, View.ld_unit_zero (S := S1x1024) zeros2]
  obtain ⟨e00, e01, e10, e11, e20, e21⟩ := idx_facts t
  funext j
  show k1_pay1 (F := Ideal) (iblk1 V c 0 t) (iblk1 V c 1 t) (iblk1 V c 2 t) j
    = Cert.Joiner.affine (V c main_v1) (V c main_v3) (V c main_v4) (((cfg1.win 3).blk t).view.emb j)
  refine block_apply (iblk1 V c 0 t) (iblk1 V c 1 t) (iblk1 V c 2 t) (V c main_v1) (V c main_v3) (V c main_v4) j
    (((cfg1.win 3).blk t).view.emb j)
    (fun k => ((cfg1.win 0).blk t).view.emb (ix2 (j 0) k)) (fun k => ((cfg1.win 1).blk t).view.emb (ix2 k (j 1)))
    (((cfg1.win 2).blk t).view.emb (ix2 (0 : Fin 1) (j 1)))
    (fun _ => rfl) (fun _ => rfl) rfl ?_ ?_ ?_ ?_ ?_ ?_
  · intro k; show win1_0.index t (0 : Fin 2) * 2048 + 1 * (j 0).val = win1_3.index t (0 : Fin 2) * 2048 + 1 * (j 0).val; omega
  · intro k; show win1_0.index t (1 : Fin 2) * 640 + 1 * k.val = k.val; omega
  · intro k; show win1_1.index t (0 : Fin 2) * 640 + 1 * k.val = k.val; omega
  · intro k; show win1_1.index t (1 : Fin 2) * 1024 + 1 * (j 1).val = win1_3.index t (1 : Fin 2) * 1024 + 1 * (j 1).val; omega
  · show win1_2.index t (0 : Fin 2) * 1 + 1 * 0 = 0; omega
  · show win1_2.index t (1 : Fin 2) * 1024 + 1 * (j 1).val = win1_3.index t (1 : Fin 2) * 1024 + 1 * (j 1).val; omega

/-- An index of the output array lies in point `t`'s block iff each coordinate lies in the block's range on its axis. -/
theorem mem_blk (t : Fin cfg1.N) (i : S65536x4096.Idx) :
    i ∈ ((cfg1.win 3).blk t).view.set ↔ ∀ a : Fin 2, win1_3.index t a * S2048x1024.size a ≤ (i a).val
      ∧ (i a).val < win1_3.index t a * S2048x1024.size a + S2048x1024.size a := by
  show i ∈ ((View.whole main_v5).slice (win1_3.rect t)).set ↔ _
  rw [View.set_slice_whole, Rect.mem_set_unit]
  exact Iff.rfl

/-- The output blocks tile the array: index `(r, v)` lies in the block of the point with block indices `(r / 2048, v / 1024)`. -/
theorem cover (i : S65536x4096.Idx) : ∃ t : Fin cfg1.N, (cfg1.win 3).flush t = true ∧ i ∈ ((cfg1.win 3).blk t).view.set := by
  have hi0 : (i 0).val < 65536 := (i 0).isLt
  have hi1 : (i 1).val < 4096 := (i 1).isLt
  obtain ⟨t, ht⟩ := idx_onto ⟨(i 0).val / 2048, by omega⟩ ⟨(i 1).val / 1024, by omega⟩
  have q0 : win1_3.index t (0 : Fin 2) = (i 0).val / 2048 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-- After the region its output array holds `Joiner.affine` of the three arrays it was entered with. -/
theorem affine_array (c : Dev nD) :
    (dat1 V c).arrAt 3 cfg1.N = Cert.Joiner.affine (V c main_v1) (V c main_v3) (V c main_v4) :=
  (dat1 V c).arrAt_eq_of_cover 3 _ (fun t _ => flushed_eq V c t) cover

end

end Cert.KernelIdeal.AffineRegion

end
-- ==== Proof.JoinerFlat.lean ====
/-
  The flat matrix view of the joiner, reshaped back, is the joiner.

  Flatten the hidden activation `[4, 256, 64, 640]` to `[65536, 640]` (row `(b·256 + t)·64 + u`), transpose the weights to
  `[640, 4096]` (a change of float format on the way is the identity on extended reals), view the bias as the row `[1, 4096]`,
  form `Joiner.affine` of the three, and reshape `[65536, 4096]` back to `[4, 256, 64, 4096]`.  At `(b, t, u, v)` this reads row
  `(b·256 + t)·64 + u`, column `v`: `(∑ k, hidden[b, t, u, k] * w[v, k]) + bias[v]`, which is `Joiner.joint`.
-/
import proofs.«110727_j85633057948138_1_alg».proof.Proof.JoinerSpec
import Idealize.ShloMosaic.Lib.Pipeline.Value
import Idealize.ShloMosaic.Lib.ValueIdx

noncomputable section

namespace Cert.Joiner

open Idealize.ShloMosaic Idealize.ShloMosaic.ValueIdx
open scoped BigOperators

theorem joint_of_flat (enc : EncS.Idx → EReal) (pred : PredS.Idx → EReal) (w : WS.Idx → EReal) (bias : BiasS.Idx → EReal)
    (h1 : HidS.ShapeCasts HidFlatS) (h2 : WS.Transposes [1, 0] WtS) (hb : FTy.bits .bf16 < FTy.bits .f32)
    (h3 : BiasS.ShapeCasts BiasRowS) (h4 : OutFlatS.ShapeCasts OutS) :
    shapeCast OutS (affine (shapeCast HidFlatS (hidden enc pred) h1)
        (truncf (F := Ideal) (s := WtS) (φ := .f32) .bf16 (transpose WtS [1, 0] w h2) hb) (shapeCast BiasRowS bias h3)) h4
      = joint enc pred w bias := by
  funext i
  have hi0 : (i 0).val < 4 := (i 0).isLt
  have hi1 : (i 1).val < 256 := (i 1).isLt
  have hi2 : (i 2).val < 64 := (i 2).isLt
  have hi3 : (i 3).val < 4096 := (i 3).isLt
  refine (shapeCast_apply _ h4 i
    (ix2 (⟨((i 0).val * 256 + (i 1).val) * 64 + (i 2).val, by omega⟩ : Fin 65536) (⟨(i 3).val, hi3⟩ : Fin 4096)) ?_).trans ?_
  · rw [Shape.rowMajor_val_two, Shape.rowMajor_val_four]
    rfl
  unfold affine joint jointAt
  refine congrArg₂ (· + ·) (Finset.sum_congr rfl fun k _ => congrArg₂ (· * ·) ?_ ?_) ?_
  · refine (shapeCast_apply _ h1 _
      (ix4 (⟨(i 0).val, hi0⟩ : Fin 4) (⟨(i 1).val, hi1⟩ : Fin 256) (⟨(i 2).val, hi2⟩ : Fin 64) k) ?_).trans rfl
    rw [Shape.rowMajor_val_four, Shape.rowMajor_val_two]
    rfl
  · show transpose WtS [1, 0] w h2 (ix2 k (⟨(i 3).val, hi3⟩ : Fin 4096)) = w (ix2 (⟨(i 3).val, (i 3).isLt⟩ : Fin 4096) k)
    refine transpose_apply [1, 0] w h2 _ (ix2 (⟨(i 3).val, hi3⟩ : Fin 4096) k) fun b => ?_
    match b with
    | ⟨0, _⟩ => rfl
    | ⟨1, _⟩ => rfl
  · refine shapeCast_apply _ h3 _ (ix1 (⟨(i 3).val, (i 3).isLt⟩ : Fin 4096)) ?_
    rw [Shape.rowMajor_val_one, Shape.rowMajor_val_two]
    show (i 3).val = 0 * 4096 + (i 3).val
    omega

end Cert.Joiner

end
-- ==== Proof.ResultValue.lean ====
/-
  The kernel program's result array, read back through the run.

  The last boundary's contents at the result buffer is the reshape to `[4, 256, 64, 4096]` of what region 1 leaves, which is
  `Joiner.affine` of region 1's three entry arrays: the reshape to `[65536, 640]` of what region 0 leaves (the hidden activation of
  `enc` and `pred`), the transposed weights (their change of float format the identity), and the bias viewed as a row.  No
  region and no host operation writes an argument, so those are the launch contents.  The flat view reshaped back is
  `Joiner.joint` (`joint_of_flat`).
-/
import proofs.«110727_j85633057948138_1_alg».proof.Proof.Gen.KernelIdeal.Frame
import proofs.«110727_j85633057948138_1_alg».proof.Proof.HiddenRegion
import proofs.«110727_j85633057948138_1_alg».proof.Proof.AffineRegion
import proofs.«110727_j85633057948138_1_alg».proof.Proof.JoinerFlat
import Idealize.ShloMosaic.Lib.StableHlo.Run

set_option maxRecDepth 16384

noncomputable section

namespace Cert.KernelIdeal.ResultValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After region 0 its output array is the hidden activation of the launch contents of `enc` and `pred`. -/
theorem hidden_at_exit (c : Dev nD) :
    W1 m ρ c (Proc.devRef .tc main_v0)
      = Cert.Joiner.hidden (m ((c.tc : Thread nD τ).loc main_arg0)) (m ((c.tc : Thread nD τ).loc main_arg1)) :=
  (W1_arr m ρ c 2).trans (HiddenRegion.hidden_array (V0 m ρ) c)

/-- Region 0 leaves the weights and the bias as launched. -/
theorem weights_at_exit (c : Dev nD) : W1 m ρ c (Proc.devRef .tc main_arg2) = m ((c.tc : Thread nD τ).loc main_arg2) :=
  W1_of_ne m ρ c main_arg2 (by decide)
theorem bias_at_exit (c : Dev nD) : W1 m ρ c (Proc.devRef .tc main_arg3) = m ((c.tc : Thread nD τ).loc main_arg3) :=
  W1_of_ne m ρ c main_arg3 (by decide)

/-- Region 1's three entry arrays: the host operations between the regions, read. -/
theorem hiddenFlat_at_entry (c : Dev nD) :
    V2 m ρ c main_v1 = shapeCast S65536x640 (W1 m ρ c (Proc.devRef .tc main_v0)) shapeCasts_S4x256x64x640_S65536x640 := by
  show StableHlo.after hostOps1 (W1 m ρ c) (Proc.devRef .tc main_v1) = _
  after_results
  rfl
theorem weightsT_at_entry (c : Dev nD) :
    V2 m ρ c main_v3 = truncf (F := Ideal) .bf16 (transpose S640x4096 [1, 0] (W1 m ρ c (Proc.devRef .tc main_arg2)) transposes_S4096x640_S640x4096_1_0)
      bitsLt_bf16_f32 := by
  show StableHlo.after hostOps1 (W1 m ρ c) (Proc.devRef .tc main_v3) = _
  after_results
theorem biasRow_at_entry (c : Dev nD) :
    V2 m ρ c main_v4 = shapeCast S1x4096 (W1 m ρ c (Proc.devRef .tc main_arg3)) shapeCasts_S4096_S1x4096 := by
  show StableHlo.after hostOps1 (W1 m ρ c) (Proc.devRef .tc main_v4) = _
  after_results
  rfl

/-- After region 1 its output array is `Joiner.affine` of its three entry arrays. -/
theorem affine_at_exit (c : Dev nD) :
    W3 m ρ c (Proc.devRef .tc main_v5) = Cert.Joiner.affine (V2 m ρ c main_v1) (V2 m ρ c main_v3) (V2 m ρ c main_v4) :=
  (W3_arr m ρ c 3).trans (AffineRegion.affine_array (V2 m ρ) c)

/-- The result buffer at the last boundary: the reshape of region 1's output array. -/
theorem result_at_end (c : Dev nD) :
    W4 m ρ c (Proc.devRef .tc main_v6)
      = shapeCast S4x256x64x4096 (W3 m ρ c (Proc.devRef .tc main_v5)) shapeCasts_S65536x4096_S4x256x64x4096 := by
  show StableHlo.after hostOps2 (W3 m ρ c) (Proc.devRef .tc main_v6) = _
  after_results
  rfl

/-- The kernel program's result is `Joiner.joint` of the four launch arguments. -/
theorem result_value (c : Dev nD) :
    W4 m ρ c (Proc.devRef .tc main_v6)
      = Cert.Joiner.joint (m ((c.tc : Thread nD τ).loc main_arg0)) (m ((c.tc : Thread nD τ).loc main_arg1))
          (m ((c.tc : Thread nD τ).loc main_arg2)) (m ((c.tc : Thread nD τ).loc main_arg3)) := by
  rw [result_at_end, affine_at_exit, hiddenFlat_at_entry, weightsT_at_entry, biasRow_at_entry, hidden_at_exit, weights_at_exit,
    bias_at_exit]
  exact Cert.Joiner.joint_of_flat _ _ _ _ _ _ _ _ _

end Cert.KernelIdeal.ResultValue

end
-- ==== Proof.ReferenceJoint.lean ====
/-
  The reference program computes `Joiner.joint`.

  Read one operation at a time, the reference broadcasts `enc` over the `u` axis and `pred` over the `t` axis, adds, takes
  `tanh`, contracts the last axis against the last axis of `w`, and adds `bias` broadcast over `(b, t, u)`.  At index
  `(b, t, u, v)` that is `(∑ k, tanh (enc[b, t, k] + pred[b, u, k]) * w[v, k]) + bias[v]`: the specification, term for term.
-/
import proofs.«110727_j85633057948138_1_alg».proof.Proof.Gen.ReferenceIdeal.Read
import proofs.«110727_j85633057948138_1_alg».proof.Proof.JoinerSpec

noncomputable section

namespace Cert.ReferenceIdeal.JointValue

open Idealize.ShloMosaic Idealize.ShloMosaic.ValueIdx
open Cert.ReferenceIdeal Cert.ReferenceIdeal.Gen Cert.ReferenceIdeal.Read
open scoped BigOperators

/-- The reference's hidden stage at `(b, t, u, k)` is the specification's hidden activation there. -/
theorem hidden_stage (enc : S4x256x640.Idx → EReal) (pred : S4x64x640.Idx → EReal) (i : S4x256x64x4096.Idx) (k : Fin 640) :
    val_main_v5 (F := Ideal) enc pred (lidx_main_v6 i k)
      = Cert.Joiner.hiddenAt enc pred ⟨(i 0).val, (i 0).isLt⟩ ⟨(i 1).val, (i 1).isLt⟩ ⟨(i 2).val, (i 2).isLt⟩ k := by
  rw [val_main_v5_apply, val_main_v4_apply, val_main_v2_apply, val_main_v3_apply, val_main_v0_apply, val_main_v1_apply]
  unfold Cert.Joiner.hiddenAt
  have e0 : idx_main_v0 (idx_main_v2 (lidx_main_v6 i k))
      = ix3 (⟨(i 0).val, (i 0).isLt⟩ : Fin 4) (⟨(i 1).val, (i 1).isLt⟩ : Fin 256) k :=
    funext fun a => Fin.ext (by match a with | ⟨0, _⟩ => rfl | ⟨1, _⟩ => rfl | ⟨2, _⟩ => rfl)
  have e1 : idx_main_v1 (idx_main_v3 (lidx_main_v6 i k))
      = ix3 (⟨(i 0).val, (i 0).isLt⟩ : Fin 4) (⟨(i 2).val, (i 2).isLt⟩ : Fin 64) k :=
    funext fun a => Fin.ext (by match a with | ⟨0, _⟩ => rfl | ⟨1, _⟩ => rfl | ⟨2, _⟩ => rfl)
  rw [e0, e1]
  rfl

/-- The reference's result stage is `Joiner.joint` of the four arguments. -/
theorem result_eq (enc : S4x256x640.Idx → EReal) (pred : S4x64x640.Idx → EReal) (w : S4096x640.Idx → EReal) (bias : S4096.Idx → EReal) :
    val_main_v9 (F := Ideal) enc pred w bias = Cert.Joiner.joint enc pred w bias := by
  funext i
  rw [val_main_v9_apply, val_main_v6_apply, val_main_v8_apply, val_main_v7_apply]
  unfold Cert.Joiner.joint Cert.Joiner.jointAt
  have er : ∀ k : Fin 640, ridx_main_v6 i k = ix2 (⟨(i 3).val, (i 3).isLt⟩ : Fin 4096) k := fun k =>
    funext fun a => Fin.ext (by match a with | ⟨0, _⟩ => rfl | ⟨1, _⟩ => rfl)
  have eb : idx_main_v7 (idx_main_v8 i) = ix1 (⟨(i 3).val, (i 3).isLt⟩ : Fin 4096) :=
    funext fun a => Fin.ext (by match a with | ⟨0, _⟩ => rfl)
  rw [eb]
  simp only [hidden_stage, er]
  rfl

end Cert.ReferenceIdeal.JointValue

end
-- ==== Proof.lean ====
/-
  A transducer joiner against its reference, over the extended reals.

  Both programs map an encoder array `enc[b, t, d]`, a predictor array `pred[b, u, d]`, a weight matrix `w[v, d]` and a bias
  `bias[v]` to

      out[b, t, u, v] = (∑ d, tanh (enc[b, t, d] + pred[b, u, d]) * w[v, d]) + bias[v]        (`Joiner.joint`).

  The kernel program does it in two grid regions with reshapes between them: the first writes the hidden activation
  `tanh (enc + pred)` block by block (its narrowing to a shorter float format is the identity on extended reals), the second
  multiplies the flattened activation `[65536, 640]` by the transposed weights `[640, 4096]` into a zero accumulator and adds the
  bias row; the blocks of each region tile its output, and reshaping the product back gives `out`.  The reference broadcasts,
  adds, takes `tanh`, contracts the last axes and adds the broadcast bias.  The two results are the same expression term for
  term — the same `tanh`, the same sum over `d`, the same bias — so no algebraic law of the extended reals is needed and the
  inputs' finiteness is never used.  The idealization rewrote no operation, so `preserves` has nothing to state.
-/
import proofs.«110727_j85633057948138_1_alg».proof.Defs
import proofs.«110727_j85633057948138_1_alg».proof.Proof.Gen.Kernel
import proofs.«110727_j85633057948138_1_alg».proof.Proof.Gen.Kernel.Skeleton
import proofs.«110727_j85633057948138_1_alg».proof.Proof.Gen.Kernel.Launch
import proofs.«110727_j85633057948138_1_alg».proof.Proof.Gen.Kernel.Points
import proofs.«110727_j85633057948138_1_alg».proof.Proof.Gen.Kernel.Frame
import proofs.«110727_j85633057948138_1_alg».proof.Proof.Gen.KernelIdeal
import proofs.«110727_j85633057948138_1_alg».proof.Proof.Gen.KernelIdeal.Skeleton
import proofs.«110727_j85633057948138_1_alg».proof.Proof.Gen.KernelIdeal.Launch
import proofs.«110727_j85633057948138_1_alg».proof.Proof.Gen.KernelIdeal.Points
import proofs.«110727_j85633057948138_1_alg».proof.Proof.Gen.KernelIdeal.Frame
import proofs.«110727_j85633057948138_1_alg».proof.Proof.Gen.ReferenceIdeal
import proofs.«110727_j85633057948138_1_alg».proof.Proof.Gen.Pre_finite_inputs
import proofs.«110727_j85633057948138_1_alg».proof.Proof.Gen.ReferenceIdeal.Run
import proofs.«110727_j85633057948138_1_alg».proof.Proof.Gen.ReferenceIdeal.Read
import proofs.«110727_j85633057948138_1_alg».proof.Proof.NamedRun
import proofs.«110727_j85633057948138_1_alg».proof.Proof.ResultValue
import proofs.«110727_j85633057948138_1_alg».proof.Proof.ReferenceJoint
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both programs end with `Joiner.joint` of them. -/
theorem algebraic : Cert.algebraic_KernelIdeal_ReferenceIdeal := by
  intro m ρ m' ρ' _ hagree
  refine ⟨fun c => Cert.Joiner.joint
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.result_value m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.JointValue.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
